-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S1x128x256 : Shape := ⟨3, ![1, 128, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S1x128x256 : S_.BroadcastsInDim S1x128x256 (![] : Fin 0 → Fin S1x128x256.rank)
  reducesTo_S1x128x256_S_d0_1_2 : S1x128x256.ReducesTo [0, 1, 2] S_

variable [Facts]

def fn {F : FTy → Type} [FloatOps F] (main_arg0 : FVec F S64x2048x256 .f32) (main_arg1 : FVec F S1x128x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S1x128x256 .f32 := Host.absf main_arg1
  let main_cst_0 : FVec F S_ .f32 := constant S_ .f32 0x7F800000#32
  let main_v5 : FVec F S1x128x256 .f32 := broadcastInDim S1x128x256 ![] bcast_S_S1x128x256 main_cst_0
  let main_v6 : IVec S1x128x256 1 := cmpf .olt main_v4 main_v5
  let main_c_1 : IVec S_ 1 := constantI S_ 1 1#1
  let main_v7 : IVec S_ 1 := (fun x v => Host.reduce IntOp.andi x v reducesTo_S1x128x256_S_d0_1_2 h_S_) main_v6 main_c_1
  let main_v8 : IVec S_ 1 := andi main_v3 main_v7
  main_v8
-- ==== Kernel.lean ====
abbrev S64x2048x256 : Shape := ⟨3, ![64, 2048, 256]⟩
abbrev S1x128x256 : Shape := ⟨3, ![1, 128, 256]⟩
abbrev S128x256 : Shape := ⟨2, ![128, 256]⟩
abbrev S64x4096 : Shape := ⟨2, ![64, 4096]⟩
abbrev S8x2048x256 : Shape := ⟨3, ![8, 2048, 256]⟩
abbrev S8x4096 : Shape := ⟨2, ![8, 4096]⟩
abbrev S256x128 : Shape := ⟨2, ![256, 128]⟩
abbrev S8x128x32 : Shape := ⟨3, ![8, 128, 32]⟩
abbrev S8x512x256 : Shape := ⟨3, ![8, 512, 256]⟩
abbrev S4096x256 : Shape := ⟨2, ![4096, 256]⟩
abbrev S4096x128 : Shape := ⟨2, ![4096, 128]⟩
abbrev S8x512x128 : Shape := ⟨3, ![8, 512, 128]⟩
abbrev S8x128 : Shape := ⟨2, ![8, 128]⟩
abbrev S8x128x1 : Shape := ⟨3, ![8, 128, 1]⟩

abbrev nBuf : Space → Nat
  | .hbm => 4
  | .vmem => 5
  | .smem => 0
  | _ => 0

abbrev bufTy : (tb : Table) → Fin (tcTables nBuf tb) → BufTy
  | .hbm, ⟨0, _⟩ => ⟨S64x2048x256, .f32⟩
  | .hbm, ⟨1, _⟩ => ⟨S1x128x256, .f32⟩
  | .hbm, ⟨2, _⟩ => ⟨S128x256, .f32⟩
  | .hbm, ⟨3, _⟩ => ⟨S64x4096, .f32⟩
  | .local _ .vmem, ⟨0, _⟩ => ⟨S8x2048x256, .f32⟩
  | .local _ .vmem, ⟨1, _⟩ => ⟨S8x2048x256, .f32⟩
  | .local _ .vmem, ⟨2, _⟩ => ⟨S128x256, .f32⟩
  | .local _ .vmem, ⟨3, _⟩ => ⟨S8x4096, .f32⟩
  | .local _ .vmem, ⟨4, _⟩ => ⟨S8x4096, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x128x256_S128x256 : S1x128x256.ShapeCasts S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  transposes_S128x256_p1_0_S256x128 : S128x256.Transposes [1, 0] S256x128
  inb_S8x2048x256_S8x512x256_0_0_0 : ∀ a, (![0, 0, 0] : Fin 3 → Nat) a + S8x512x256.size a ≤ S8x2048x256.size a
  h_S8x512x256 : 0 < S8x512x256.numel
  shapeCasts_S8x512x256_S4096x256 : S8x512x256.ShapeCasts S4096x256
  shapeCasts_S4096x128_S8x512x128 : S4096x128.ShapeCasts S8x512x128
  natLt_1_32 : 1 < 32
  reduces_S8x512x128_S8x128 : S8x512x128.Reduces [1] S8x128
  shapeCasts_S8x128_S8x128x1 : S8x128.ShapeCasts S8x128x1
  concatenates_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x32_d2 : Shape.Concatenates [S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1, S8x128x1] S8x128x32 2
  inb_S8x2048x256_S8x512x256_0_512_0 : ∀ a, (![0, 512, 0] : Fin 3 → Nat) a + S8x512x256.size a ≤ S8x2048x256.size a
  inb_S8x2048x256_S8x512x256_0_1024_0 : ∀ a, (![0, 1024, 0] : Fin 3 → Nat) a + S8x512x256.size a ≤ S8x2048x256.size a
  inb_S8x2048x256_S8x512x256_0_1536_0 : ∀ a, (![0, 1536, 0] : Fin 3 → Nat) a + S8x512x256.size a ≤ S8x2048x256.size a
  shapeCasts_S8x128x32_S8x4096 : S8x128x32.ShapeCasts S8x4096
  inb_S8x4096_S8x4096_0_0 : ∀ a, (![0, 0] : Fin 2 → Nat) a + S8x4096.size a ≤ S8x4096.size a
  h_S8x4096 : 0 < S8x4096.numel
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x256.size a ≤ S64x2048x256.size a
  hwx0_0 : ∀ i : grid0.Coords, EltTy.bits .f32 = 32 ∨ (Rect.block (s := S64x2048x256) S8x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S64x4096.size a
  hwx0_2 : ∀ i : grid0.Coords, EltTy.bits .f32 = 32 ∨ (Rect.block (s := S64x4096) S8x4096.size (cc0_transform_2 i) (hinb0_2 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S8x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S1x128x256 : Shape := ⟨3, ![1, 128, 256]⟩
abbrev S128x256 : Shape := ⟨2, ![128, 256]⟩
abbrev S64x2048x128 : Shape := ⟨3, ![64, 2048, 128]⟩
abbrev S_ : Shape := ⟨0, ![]⟩
abbrev S64 : Shape := ⟨1, ![64]⟩
abbrev S64x1x1 : Shape := ⟨3, ![64, 1, 1]⟩
abbrev S128 : Shape := ⟨1, ![128]⟩
abbrev S1x1x128 : Shape := ⟨3, ![1, 1, 128]⟩
abbrev S64x128x32 : Shape := ⟨3, ![64, 128, 32]⟩
abbrev S64x2048x128x1 : Shape := ⟨4, ![64, 2048, 128, 1]⟩
abbrev S64x2048x128x3 : Shape := ⟨4, ![64, 2048, 128, 3]⟩
abbrev S64x4096 : Shape := ⟨2, ![64, 4096]⟩

abbrev nBuf : Space → Nat
  | .hbm => 64
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S1x128x256, .f32⟩
  | .hbm, ⟨2, _⟩ => ⟨S128x256, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S_, .f32⟩
  | .hbm, ⟨7, _⟩ => ⟨S64x2048x128, .f32⟩
  | .hbm, ⟨8, _⟩ => ⟨S64x2048x128, .f32⟩
  | .hbm, ⟨9, _⟩ => ⟨S_, .f32⟩
  | .hbm, ⟨10, _⟩ => ⟨S64x2048x128, .f32⟩
  | .hbm, ⟨11, _⟩ => ⟨S64x2048x128, .f32⟩
  | .hbm, ⟨12, _⟩ => ⟨S_, .f32⟩
  | .hbm, ⟨13, _⟩ => ⟨S64x2048x128, .f32⟩
  | .hbm, ⟨14, _⟩ => ⟨S64x2048x128, .f32⟩
  | .hbm, ⟨15, _⟩ => ⟨S64x2048x128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x2048x128, .i32⟩
  | .hbm, ⟨20, _⟩ => ⟨S64x2048x128, .i32⟩
  | .hbm, ⟨21, _⟩ => ⟨S_, .i32⟩
  | .hbm, ⟨22, _⟩ => ⟨S64x2048x128, .i32⟩
  | .hbm, ⟨23, _⟩ => ⟨S64x2048x128, .i32⟩
  | .hbm, ⟨24, _⟩ => ⟨S64, .i32⟩
  | .hbm, ⟨25, _⟩ => ⟨S64x1x1, .i32⟩
  | .hbm, ⟨26, _⟩ => ⟨S128, .i32⟩
  | .hbm, ⟨27, _⟩ => ⟨S1x1x128, .i32⟩
  | .hbm, ⟨28, _⟩ => ⟨S_, .f32⟩
  | .hbm, ⟨29, _⟩ => ⟨S64x128x32, .f32⟩
  | .hbm, ⟨30, _⟩ => ⟨S_, .i32⟩
  | .hbm, ⟨31, _⟩ => ⟨S64x1x1, .i32⟩
  | .hbm, ⟨32, _⟩ => ⟨S64x1x1, .i1⟩
  | .hbm, ⟨33, _⟩ => ⟨S_, .i32⟩
  | .hbm, ⟨34, _⟩ => ⟨S64x1x1, .i32⟩
  | .hbm, ⟨35, _⟩ => ⟨S64x1x1, .i32⟩
  | .hbm, ⟨36, _⟩ => ⟨S64x1x1, .i32⟩
  | .hbm, ⟨37, _⟩ => ⟨S_, .i32⟩
  | .hbm, ⟨38, _⟩ => ⟨S1x1x128, .i32⟩
  | .hbm, ⟨39, _⟩ => ⟨S1x1x128, .i1⟩
  | .hbm, ⟨40, _⟩ => ⟨S_, .i32⟩
  | .hbm, ⟨41, _⟩ => ⟨S1x1x128, .i32⟩
  | .hbm, ⟨42, _⟩ => ⟨S1x1x128, .i32⟩
  | .hbm, ⟨43, _⟩ => ⟨S1x1x128, .i32⟩
  | .hbm, ⟨44, _⟩ => ⟨S_, .i32⟩
  | .hbm, ⟨45, _⟩ => ⟨S64x2048x128, .i32⟩
  | .hbm, ⟨46, _⟩ => ⟨S64x2048x128, .i1⟩
  | .hbm, ⟨47, _⟩ => ⟨S_, .i32⟩
  | .hbm, ⟨48, _⟩ => ⟨S64x2048x128, .i32⟩
  | .hbm, ⟨49, _⟩ => ⟨S64x2048x128, .i32⟩
  | .hbm, ⟨50, _⟩ => ⟨S64x2048x128, .i32⟩
  | .hbm, ⟨51, _⟩ => ⟨S64x2048x128, .i32⟩
  | .hbm, ⟨52, _⟩ => ⟨S64x2048x128, .i32⟩
  | .hbm, ⟨53, _⟩ => ⟨S64x2048x128x1, .i32⟩
  | .hbm, ⟨54, _⟩ => ⟨S64x2048x128x1, .i32⟩
  | .hbm, ⟨55, _⟩ => ⟨S64x2048x128x1, .i32⟩
  | .hbm, ⟨56, _⟩ => ⟨S64x2048x128x3, .i32⟩
  | .hbm, ⟨57, _⟩ => ⟨S_, .f32⟩
  | .hbm, ⟨58, _⟩ => ⟨S64x2048x128, .f32⟩
  | .hbm, ⟨59, _⟩ => ⟨S64x128x32, .f32⟩
  | .hbm, ⟨60, _⟩ => ⟨S_, .f32⟩
  | .hbm, ⟨61, _⟩ => ⟨S64x128x32, .f32⟩
  | .hbm, ⟨62, _⟩ => ⟨S64x128x32, .f32⟩
  | .hbm, ⟨63, _⟩ => ⟨S64x4096, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  shapeCasts_S1x128x256_S128x256 : S1x128x256.ShapeCasts S128x256
  bcast_S_S64x2048x128 : S_.BroadcastsInDim S64x2048x128 (![] : Fin 0 → Fin S64x2048x128.rank)
  bcast_S64_S64x1x1_0 : S64.BroadcastsInDim S64x1x1 (![0] : Fin 1 → Fin S64x1x1.rank)
  bcast_S128_S1x1x128_2 : S128.BroadcastsInDim S1x1x128 (![2] : Fin 1 → Fin S1x1x128.rank)
  bcast_S_S64x128x32 : S_.BroadcastsInDim S64x128x32 (![] : Fin 0 → Fin S64x128x32.rank)
  bcast_S_S64x1x1 : S_.BroadcastsInDim S64x1x1 (![] : Fin 0 → Fin S64x1x1.rank)
  bcast_S_S1x1x128 : S_.BroadcastsInDim S1x1x128 (![] : Fin 0 → Fin S1x1x128.rank)
  bcast_S64x1x1_S64x2048x128_0_1_2 : S64x1x1.BroadcastsInDim S64x2048x128 (![0, 1, 2] : Fin 3 → Fin S64x2048x128.rank)
  bcast_S1x1x128_S64x2048x128_0_1_2 : S1x1x128.BroadcastsInDim S64x2048x128 (![0, 1, 2] : Fin 3 → Fin S64x2048x128.rank)
  bcast_S64x2048x128_S64x2048x128x1_0_1_2 : S64x2048x128.BroadcastsInDim S64x2048x128x1 (![0, 1, 2] : Fin 3 → Fin S64x2048x128x1.rank)
  concatenates_S64x2048x128x1_S64x2048x128x1_S64x2048x128x1_S64x2048x128x3_d3 : Shape.Concatenates [S64x2048x128x1, S64x2048x128x1, S64x2048x128x1] S64x2048x128x3 3
  shapeCasts_S64x128x32_S64x4096 : S64x128x32.ShapeCasts S64x4096
  dot_S64x2048x256_S128x256_S64x2048x128_2_1_01_0_n_n_wf : DotDims.WF S64x2048x256 S128x256 S64x2048x128 [2] [1] [0, 1] [0] [] []
  scatter_S64x128x32_S64x2048x128x3_S64x2048x128_n_012_012_3_wf : ScatterDims.WF S64x128x32 S64x2048x128x3 S64x2048x128 [] [0, 1, 2] [0, 1, 2] 3

variable [Facts₀]

def dot_S64x2048x256_S128x256_S64x2048x128_2_1_01_0_n_n : DotDims S64x2048x256 S128x256 S64x2048x128 where
  lhsContracting := [2]
  rhsContracting := [1]
  lhsNonContracting := [0, 1]
  rhsNonContracting := [0]
  lhsBatch := []
  rhsBatch := []
  wf := dot_S64x2048x256_S128x256_S64x2048x128_2_1_01_0_n_n_wf
def scatter_S64x128x32_S64x2048x128x3_S64x2048x128_n_012_012_3 : ScatterDims S64x128x32 S64x2048x128x3 S64x2048x128 where
  updateWindowDims := []
  insertedWindowDims := [0, 1, 2]
  scatterDimsToOperandDims := [0, 1, 2]
  indexVectorDim := 3
  wf := scatter_S64x128x32_S64x2048x128x3_S64x2048x128_n_012_012_3_wf

class Facts : Prop extends Facts₀ where

variable [Facts]
-- ==== Proof.HistKer.lean ====
/-
  The kernel's body as one tree of vector operations of the blocks it loads.

  At one grid point the body loads the 128 × 256 weight block once and the 8 × 2048 × 256 example block in four runs of 512
  examples. For each run it multiplies the 4096 example rows by the transposed weights, takes the logistic, scales by 32,
  cuts to an integer and clips to `0 … 31` (the run's BIN INDICES, an 8 × 512 × 128 array of words); for each of the 32 bins
  it marks the examples whose index is that bin and sums the marks over the run's 512 examples (an 8 × 128 COUNT); the 32
  counts side by side are the run's 8 × 128 × 32 histogram. The four runs' histograms are added onto zero, divided by 2048,
  and laid out as 8 × 4096.

  The generated payloads cut this tree at other places; `out_eq` says that what the body leaves in the output block is this
  tree of the loaded pieces.
-/
import proofs.«168139_j24893630448192_1_alg».proof.Proof.Gen.KernelIdeal.Frame
import Idealize.ShloMosaic.Lib.Pipeline.Value
import Idealize.ShloMosaic.PureOps.Ideal

set_option maxRecDepth 16384

noncomputable section

namespace Cert.KernelIdeal.HistKer

open Cert.KernelIdeal Cert.KernelIdeal.Gen Idealize.ShloMosaic Idealize.ShloMosaic.TcCoe Idealize.SL.Sem

/-- The scores of one run of 512 examples: the 4096 example rows times the transposed weights, as 8 × 512 × 128. -/
def scores (W : Vec Ideal S128x256 .f32) (X : Vec Ideal S8x512x256 .f32) : FVec Ideal S8x512x128 .f32 :=
  shapeCast S8x512x128
    (matmul dot_S4096x256_S256x128_S4096x128_1_0_0_1_n_n none
      (truncf .bf16 (shapeCast S4096x256 X shapeCasts_S8x512x256_S4096x256) bitsLt_bf16_f32)
      (transpose S256x128 [1, 0]
        (truncf .bf16 (shapeCast S128x256 W shapeCasts_S128x256_S128x256) bitsLt_bf16_f32)
        transposes_S128x256_p1_0_S256x128)
      (constant S4096x128 .f32 0x00000000#32))
    shapeCasts_S4096x128_S8x512x128

/-- The bin indices of the run: `clip (trunc (32 · logistic score), 0, 31)`, word by word. -/
def binIdx (W : Vec Ideal S128x256 .f32) (X : Vec Ideal S8x512x256 .f32) : IVec S8x512x128 32 :=
  minsi (broadcast S8x512x128 31#32)
    (maxsi (broadcast S8x512x128 0#32)
      (fptosi 32 (mulf (logistic (scores W X)) (broadcast S8x512x128 (Scalar.ofBits .f32 0x42000000#32)))))

/-- How many of a run's 512 examples have bin index `k`, per (batch row, feature). -/
def binCount (idx : IVec S8x512x128 32) (k : BitVec 32) : FVec Ideal S8x128 .f32 :=
  multiReduction .add [1] S8x128
    (sitofp .f32 (extui 32 (cmpi .eq idx (broadcast S8x512x128 k)) natLt_1_32))
    0x00000000#32 reduces_S8x512x128_S8x128 (.inl rfl) rfl

/-- A run's histogram: its 32 counts side by side along the last axis. -/
def chunkHist (idx : IVec S8x512x128 32) : FVec Ideal S8x128x32 .f32 :=
  concatenate S8x128x32 2
    (List.ofFn fun n : Fin 32 =>
      (⟨S8x128x1, shapeCast S8x128x1 (binCount idx (BitVec.ofNat 32 n.val)) shapeCasts_S8x128_S8x128x1⟩ :
        (s : Shape) × FVec Ideal s .f32))
    concatenates_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x1_S8x128x32_d2

/-- What the body leaves in the output block: the four runs' histograms added onto zero, over 2048, as 8 × 4096. -/
def histBlock (W : Vec Ideal S128x256 .f32) (X1 X2 X3 X4 : Vec Ideal S8x512x256 .f32) : FVec Ideal S8x4096 .f32 :=
  shapeCast S8x4096
    (divf
      (addf (addf (addf (addf (broadcast S8x128x32 (Scalar.ofBits .f32 0x00000000#32))
        (chunkHist (binIdx W X1))) (chunkHist (binIdx W X2))) (chunkHist (binIdx W X3))) (chunkHist (binIdx W X4)))
      (broadcast S8x128x32 (Scalar.ofBits .f32 0x45000000#32)))
    shapeCasts_S8x128x32_S8x4096

theorem zero_offsets : (![0, 0] : Fin 2 → Nat) = fun _ => 0 := funext fun a => by fin_cases a <;> rfl

/-- The body's one store covers the output block, and its payload is the tree above of the loaded pieces. -/
theorem out_eq (x0 : Vec Ideal S8x2048x256 .f32) (x1 : Vec Ideal S128x256 .f32) :
    out0_2 x0 x1
      = histBlock (View.ld x1 r0_0) (View.ld x0 r0_1) (View.ld x0 r0_2) (View.ld x0 r0_3) (View.ld x0 r0_4) := by
  unfold out0_2
  rw [View.canon_unit_zero zero_offsets]
  rfl

end Cert.KernelIdeal.HistKer

end
-- ==== Proof.HistSpec.lean ====
/-
  The specification both programs are compared with: a per-(batch, feature) histogram of logistic scores over 32 uniform
  bins, normalised by the number of examples.

  For batch `b`, example `n` and feature `f` the SCORE is the inner product over the 256 input coordinates of example
  `(b, n)` with row `f` of the weights. Its BIN is the logistic of the score times 32, cut toward zero to a signed 32-bit
  integer and clipped to `0 … 31`. Entry `(b, 32 f + k)` of the result is the number of examples of batch `b` whose bin for
  feature `f` is `k`, divided by 2048.

  Also here, free of any program: the clipped bin is a word between 0 and 31; a comparison's bit widened to a word and
  converted to a float is the indicator of the equality; and a sum over 2048 examples is the sum of four runs of 512.
-/
import Idealize.ShloMosaic.PureOps.Ideal
import Idealize.ShloMosaic.Lib.ValueIdx

noncomputable section

namespace Cert.HistSpec

open Idealize.ShloMosaic Idealize.ShloMosaic.ValueIdx

/-- The score of example `n` of batch `b` against feature `f`. -/
def score (X : (⟨3, ![64, 2048, 256]⟩ : Shape).Idx → EReal) (W : (⟨3, ![1, 128, 256]⟩ : Shape).Idx → EReal)
    (b : Fin 64) (n : Fin 2048) (f : Fin 128) : EReal :=
  ∑ d : Fin 256, X (ix3 b n d) * W (ix3 (0 : Fin 1) f d)

/-- The bin of a score, as a 32-bit word: `clip (trunc (32 · logistic s), 0, 31)`. -/
def binWord (s : EReal) : BitVec 32 :=
  IntOp.minsi 31#32 (IntOp.maxsi 0#32 (Ideal.fptosi 32 (Ideal.logistic s * Ideal.ofBits .f32 0x42000000#32)))

/-- How many examples of batch `b` fall in bin `k` for feature `f`. -/
def hits (X : (⟨3, ![64, 2048, 256]⟩ : Shape).Idx → EReal) (W : (⟨3, ![1, 128, 256]⟩ : Shape).Idx → EReal)
    (b : Fin 64) (f : Fin 128) (k : Fin 32) : EReal :=
  ∑ n : Fin 2048, if binWord (score X W b n f) = BitVec.ofNat 32 k.val then (1 : EReal) else 0

/-- The normalised histograms, laid out as `[64, 128 · 32]`. -/
def hist (X : (⟨3, ![64, 2048, 256]⟩ : Shape).Idx → EReal) (W : (⟨3, ![1, 128, 256]⟩ : Shape).Idx → EReal) :
    (⟨2, ![64, 4096]⟩ : Shape).Idx → EReal := fun j =>
  Ideal.div (hits X W (j 0) ⟨(j 1).val / 32, by have := idx2_lt1 j; omega⟩ ⟨(j 1).val % 32, Nat.mod_lt _ (by norm_num)⟩)
    (Ideal.ofBits .f32 0x45000000#32)

/-! ## The clipped bin is a word in `0 … 31` -/

theorem clip_toInt (x : BitVec 32) :
    0 ≤ (IntOp.minsi 31#32 (IntOp.maxsi 0#32 x)).toInt ∧ (IntOp.minsi 31#32 (IntOp.maxsi 0#32 x)).toInt ≤ 31 := by
  unfold IntOp.minsi IntOp.maxsi
  have h0 : (0#32 : BitVec 32).toInt = 0 := by decide
  have h31 : (31#32 : BitVec 32).toInt = 31 := by decide
  by_cases h1 : x.slt 0#32 = true
  · rw [if_pos h1]
    by_cases h2 : (31#32 : BitVec 32).slt 0#32 = true
    · exact absurd h2 (by decide)
    · rw [if_neg h2, h0]; omega
  · rw [if_neg h1]
    have h1' : ¬ x.toInt < 0 := by rw [← h0, ← BitVec.slt_iff_toInt_lt]; exact h1
    by_cases h2 : (31#32 : BitVec 32).slt x = true
    · rw [if_pos h2, h31]; omega
    · rw [if_neg h2]
      have h2' : ¬ (31 : Int) < x.toInt := by rw [← h31, ← BitVec.slt_iff_toInt_lt]; exact h2
      omega

theorem binWord_toInt (s : EReal) : 0 ≤ (binWord s).toInt ∧ (binWord s).toInt ≤ 31 := clip_toInt _

/-- So the bin, read as a natural number, is below 32, and the word is that number. -/
theorem binWord_toNat_lt (s : EReal) : (binWord s).toNat < 32 := by
  have h := binWord_toInt s
  have e := BitVec.toInt_eq_toNat_cond (binWord s)
  have := (binWord s).isLt
  split_ifs at e <;> omega

theorem binWord_toInt_eq_toNat (s : EReal) : (binWord s).toInt = ((binWord s).toNat : Int) := by
  have h := binWord_toInt s
  have e := BitVec.toInt_eq_toNat_cond (binWord s)
  have := (binWord s).isLt
  split_ifs at e <;> omega

/-- The bin is `k` exactly when the word's number is `k`. -/
theorem binWord_eq_iff (s : EReal) (k : Fin 32) : binWord s = BitVec.ofNat 32 k.val ↔ (binWord s).toNat = k.val := by
  constructor
  · intro h; rw [h]; simp only [BitVec.toNat_ofNat]; have := k.isLt; omega
  · intro h; apply BitVec.eq_of_toNat_eq; rw [h]; simp only [BitVec.toNat_ofNat]; have := k.isLt; omega

/-! ## A comparison's bit, widened and converted, is the indicator -/

theorem indicator (x k : BitVec 32) :
    ((((IntOp.cmpi .eq x k).setWidth 32).toInt : ℝ) : EReal) = if x = k then (1 : EReal) else 0 := by
  unfold IntOp.cmpi
  by_cases h : x = k
  · subst h; simp
  · rw [if_neg h]
    have : (x == k) = false := by simpa using h
    simp [this]

/-! ## Two thousand and forty-eight examples are four runs of 512 -/

theorem sum_four_runs (g : Fin 2048 → EReal) :
    ∑ n : Fin 2048, g n
      = (((0 + ∑ r : Fin 512, g ⟨r.val, by omega⟩) + ∑ r : Fin 512, g ⟨512 + r.val, by omega⟩)
          + ∑ r : Fin 512, g ⟨1024 + r.val, by omega⟩) + ∑ r : Fin 512, g ⟨1536 + r.val, by omega⟩ := by
  have e : ∑ n : Fin 2048, g n = ∑ p : Fin 4 × Fin 512, g (finProdFinEquiv p) :=
    (Equiv.sum_comp (finProdFinEquiv : Fin 4 × Fin 512 ≃ Fin (4 * 512)) g).symm
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  have c0 : ∀ r : Fin 512, g (finProdFinEquiv ((0 : Fin 4), r)) = g ⟨r.val, by omega⟩ := fun r =>
    congrArg g (Fin.ext (by show r.val + 512 * ((0 : Fin 4) : ℕ) = r.val; omega))
  have c1 : ∀ r : Fin 512, g (finProdFinEquiv ((1 : Fin 4), r)) = g ⟨512 + r.val, by omega⟩ := fun r =>
    congrArg g (Fin.ext (by show r.val + 512 * ((1 : Fin 4) : ℕ) = 512 + r.val; omega))
  have c2 : ∀ r : Fin 512, g (finProdFinEquiv ((2 : Fin 4), r)) = g ⟨1024 + r.val, by omega⟩ := fun r =>
    congrArg g (Fin.ext (by show r.val + 512 * ((2 : Fin 4) : ℕ) = 1024 + r.val; omega))
  have c3 : ∀ r : Fin 512, g (finProdFinEquiv ((3 : Fin 4), r)) = g ⟨1536 + r.val, by omega⟩ := fun r =>
    congrArg g (Fin.ext (by show r.val + 512 * ((3 : Fin 4) : ℕ) = 1536 + r.val; omega))
  rw [e, Fintype.sum_prod_type, Fin.sum_univ_four, zero_add]
  simp only [c0, c1, c2, c3]

end Cert.HistSpec

end
-- ==== Proof.HistKerRead.lean ====
/-
  The kernel's tree of operations read at an index.

  A run's score at (row p, example r, feature f) is the inner product over the 256 coordinates of the run's example (p, r)
  with weight row f: the 8 × 512 examples are laid out as 4096 rows, row 512 p + r, the weights are transposed, both casts
  to bf16 are the identity on extended reals, and the matrix product into a zero accumulator is the plain sum. The bin
  index there is the specification's bin of that score. A count at (p, f) is the number of the run's 512 examples whose
  index at (p, r, f) is the bin; a run's histogram at (p, f, k) is the count of bin k; and the output block at
  (p, 32 f + k) is the four runs' counts added onto zero, over 2048. With the four runs of 512 put together
  (the specification's `sum_four_runs`) that is the specification's `hits` over 2048.
-/
import proofs.«168139_j24893630448192_1_alg».proof.Proof.HistKer
import proofs.«168139_j24893630448192_1_alg».proof.Proof.HistSpec
import Idealize.ShloMosaic.Lib.ValueIdx
import Idealize.ShloMosaic.Lib.Pipeline.Value
import Idealize.ShloMosaic.PureOps.Ideal.Laws

set_option maxRecDepth 16384

noncomputable section

namespace Cert.KernelIdeal.HistKer

open Cert.KernelIdeal Cert.KernelIdeal.Gen Idealize.ShloMosaic Idealize.ShloMosaic.TcCoe Idealize.SL.Sem
open Idealize.ShloMosaic.ValueIdx Cert.HistSpec

/-! ## The matrix product at an index -/

theorem lhs_row (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

theorem lhs_contr (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q

theorem rhs_contr (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q

theorem rhs_col (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- Row `i 0` of the left operand at contraction coordinate `k`. -/
abbrev rowAt (i : S4096x128.Idx) (k : Fin 256) : S4096x256.Idx := fun a => match a with
  | ⟨0, _⟩ => ⟨(i 0).val, (i 0).isLt⟩
  | ⟨1, _⟩ => ⟨k.val, k.isLt⟩

/-- Column `i 1` of the right operand at contraction coordinate `k`. -/
abbrev colAt (i : S4096x128.Idx) (k : Fin 256) : S256x128.Idx := fun a => match a with
  | ⟨0, _⟩ => ⟨k.val, k.isLt⟩
  | ⟨1, _⟩ => ⟨(i 1).val, (i 1).isLt⟩

/-- Into the zero accumulator the matrix product is the sum over the 256 contraction coordinates of row times column. -/
theorem matmul_at (L : FVec Ideal S4096x256 .bf16) (R : FVec Ideal S256x128 .bf16) (i : S4096x128.Idx) :
    matmul dot_S4096x256_S256x128_S4096x128_1_0_0_1_n_n none L R (constant S4096x128 .f32 0x00000000#32) i
      = ∑ k : Fin 256, L (rowAt i k) * R (colAt i k) := by
  simp only [matmul]
  rw [Ideal.matmul_constant_zero_apply,
    ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx i ((ValueIdx.contrEquiv1 dot_S4096x256_S256x128_S4096x128_1_0_0_1_n_n 256 rfl rfl).symm k) = rowAt i k :=
    funext fun a => Fin.ext (by
      match a with
      | ⟨0, _⟩ => exact lhs_row _ _
      | ⟨1, _⟩ => exact (lhs_contr _ _).trans hk)
  have er : dot_S4096x256_S256x128_S4096x128_1_0_0_1_n_n.rhsIdx i ((ValueIdx.contrEquiv1 dot_S4096x256_S256x128_S4096x128_1_0_0_1_n_n 256 rfl rfl).symm k) = colAt i k :=
    funext fun a => Fin.ext (by
      match a with
      | ⟨0, _⟩ => exact (rhs_contr _ _).trans hk
      | ⟨1, _⟩ => exact rhs_col _ _)
  rw [el, er]

/-! ## A run's scores and bin indices -/

/-- The score of example `(p, r)` of the run against feature `f`. -/
theorem scores_apply (W : Vec Ideal S128x256 .f32) (X : Vec Ideal S8x512x256 .f32) (p : Fin 8) (r : Fin 512) (f : Fin 128) :
    scores W X (ix3 p r f) = ∑ d : Fin 256, X (ix3 p r d) * W (ix2 f d) := by
  unfold scores
  refine (shapeCast_apply _ _ (ix3 p r f) (ix2 (⟨p.val * 512 + r.val, by omega⟩ : Fin 4096) f) ?_).trans ?_
  · rw [Shape.rowMajor_val_two, Shape.rowMajor_val_three]
    show (p.val * 512 + r.val) * 128 + f.val = (p.val * 512 + r.val) * 128 + f.val
    rfl
  · rw [matmul_at]
    refine Finset.sum_congr rfl fun d _ => ?_
    have eL : (truncf .bf16 (shapeCast S4096x256 X shapeCasts_S8x512x256_S4096x256) bitsLt_bf16_f32 : FVec Ideal S4096x256 .bf16)
        (rowAt (ix2 (⟨p.val * 512 + r.val, by omega⟩ : Fin 4096) f) d) = X (ix3 p r d) := by
      show shapeCast S4096x256 X shapeCasts_S8x512x256_S4096x256 (rowAt (ix2 (⟨p.val * 512 + r.val, by omega⟩ : Fin 4096) f) d) = _
      refine shapeCast_apply X _ _ (ix3 p r d) ?_
      rw [Shape.rowMajor_val_three, Shape.rowMajor_val_two]
      show (p.val * 512 + r.val) * 256 + d.val = (p.val * 512 + r.val) * 256 + d.val
      rfl
    have eR : (transpose S256x128 [1, 0]
          (truncf .bf16 (shapeCast S128x256 W shapeCasts_S128x256_S128x256) bitsLt_bf16_f32 : FVec Ideal S128x256 .bf16)
          transposes_S128x256_p1_0_S256x128)
        (colAt (ix2 (⟨p.val * 512 + r.val, by omega⟩ : Fin 4096) f) d) = W (ix2 f d) := by
      refine (transpose_apply [1, 0] _ _ _ (ix2 f d) (fun b => by
        match b with
        | ⟨0, _⟩ => rfl
        | ⟨1, _⟩ => rfl)).trans ?_
      show shapeCast S128x256 W shapeCasts_S128x256_S128x256 (ix2 f d) = _
      rw [shapeCast_self]
    rw [eL, eR]

/-- The bin index of example `(p, r)` for feature `f` is the specification's bin of its score. -/
theorem binIdx_apply (W : Vec Ideal S128x256 .f32) (X : Vec Ideal S8x512x256 .f32) (p : Fin 8) (r : Fin 512) (f : Fin 128) :
    binIdx W X (ix3 p r f) = binWord (∑ d : Fin 256, X (ix3 p r d) * W (ix2 f d)) := by
  show IntOp.minsi 31#32 (IntOp.maxsi 0#32
      (Ideal.fptosi 32 (Ideal.logistic (scores W X (ix3 p r f)) * Ideal.ofBits .f32 0x42000000#32))) = _
  rw [scores_apply]
  rfl

/-! ## Counts and a run's histogram -/

theorem lift_example (p : Fin 8) (r : Fin 512) (f : Fin 128) :
    reduces_S8x512x128_S8x128.lift (ix2 p f) r = ix3 p r f := by
  funext c
  apply Fin.ext
  show Shape.Reduces.liftVal reduces_S8x512x128_S8x128 (ix2 p f) r.val c = _
  unfold Shape.Reduces.liftVal
  match c with
  | ⟨0, _⟩ => rfl
  | ⟨1, _⟩ => rfl
  | ⟨2, _⟩ => rfl

/-- A count at (row `p`, feature `f`): how many of the run's 512 examples carry the bin. -/
theorem binCount_apply (idx : IVec S8x512x128 32) (k : BitVec 32) (p : Fin 8) (f : Fin 128) :
    binCount idx k (ix2 p f) = ∑ r : Fin 512, if idx (ix3 p r f) = k then (1 : EReal) else 0 := by
  show Ideal.reduceAdd reduces_S8x512x128_S8x128
      (sitofp .f32 (extui 32 (cmpi .eq idx (broadcast S8x512x128 k)) natLt_1_32) : FVec Ideal S8x512x128 .f32) (ix2 p f) = _
  rw [Ideal.reduceAdd_single]
  show ∑ r : Fin 512, (sitofp .f32 (extui 32 (cmpi .eq idx (broadcast S8x512x128 k)) natLt_1_32) : FVec Ideal S8x512x128 .f32)
      (reduces_S8x512x128_S8x128.lift (ix2 p f) r) = _
  refine Finset.sum_congr rfl fun r _ => ?_
  rw [lift_example]
  exact indicator (idx (ix3 p r f)) k

/-- A run's histogram at (row `p`, feature `f`, bin `k`) is the count of bin `k`. -/
theorem chunkHist_apply (idx : IVec S8x512x128 32) (p : Fin 8) (f : Fin 128) (k : Fin 32) :
    chunkHist idx (ix3 p f k) = binCount idx (BitVec.ofNat 32 k.val) (ix2 p f) := by
  unfold chunkHist
  refine (concatenate_ofFn_unit_apply (t := S8x128x32) (s₁ := S8x128x1) 2
      (fun n : Fin 32 => shapeCast S8x128x1 (binCount idx (BitVec.ofNat 32 n.val)) shapeCasts_S8x128_S8x128x1)
      _ rfl rfl (ix3 p f k) k rfl (ix3 p f (0 : Fin 1)) ?_).trans ?_
  · intro b hb
    match b with
    | ⟨0, _⟩ => rfl
    | ⟨1, _⟩ => rfl
    | ⟨2, _⟩ => exact absurd rfl hb
  · refine shapeCast_apply _ _ _ (ix2 p f) ?_
    rw [Shape.rowMajor_val_two, Shape.rowMajor_val_three]
    show p.val * 128 + f.val = (p.val * 128 + f.val) * 1 + 0
    omega

/-! ## The output block -/

/-- The output block at (row `p`, column `32 f + k`): the four runs' histogram entries added onto zero, over 2048. -/
theorem histBlock_apply (W : Vec Ideal S128x256 .f32) (X1 X2 X3 X4 : Vec Ideal S8x512x256 .f32)
    (p : Fin 8) (f : Fin 128) (k : Fin 32) :
    histBlock W X1 X2 X3 X4 (ix2 p (⟨f.val * 32 + k.val, by omega⟩ : Fin 4096))
      = Ideal.div
          ((((0 + chunkHist (binIdx W X1) (ix3 p f k)) + chunkHist (binIdx W X2) (ix3 p f k))
            + chunkHist (binIdx W X3) (ix3 p f k)) + chunkHist (binIdx W X4) (ix3 p f k))
          (Ideal.ofBits .f32 0x45000000#32) := by
  unfold histBlock
  refine (shapeCast_apply _ _ _ (ix3 p f k) ?_).trans ?_
  · rw [Shape.rowMajor_val_three, Shape.rowMajor_val_two]
    show (p.val * 128 + f.val) * 32 + k.val = p.val * 4096 + (f.val * 32 + k.val)
    omega
  · show Ideal.div ((((Ideal.ofBits .f32 0x00000000#32 + _) + _) + _) + _) _ = _
    rw [Ideal.ofBits_zero_f32]
    rfl

/-- THE BLOCK'S ENTRY: when the weight block is the weights and the four loaded runs are examples `0 … 511`, `512 … 1023`,
    `1024 … 1535`, `1536 … 2047` of batch `b`, the output block at (row `p`, column `32 f + k`) is the number of batch `b`'s
    examples in bin `k` for feature `f`, over 2048. -/
theorem histBlock_entry (Wb : Vec Ideal S128x256 .f32) (X1 X2 X3 X4 : Vec Ideal S8x512x256 .f32)
    (X : (⟨3, ![64, 2048, 256]⟩ : Shape).Idx → EReal) (W : (⟨3, ![1, 128, 256]⟩ : Shape).Idx → EReal)
    (b : Fin 64) (p : Fin 8) (f : Fin 128) (k : Fin 32)
    (hW : ∀ (f : Fin 128) (d : Fin 256), Wb (ix2 f d) = W (ix3 (0 : Fin 1) f d))
    (h1 : ∀ (r : Fin 512) (d : Fin 256), X1 (ix3 p r d) = X (ix3 b (⟨r.val, by omega⟩ : Fin 2048) d))
    (h2 : ∀ (r : Fin 512) (d : Fin 256), X2 (ix3 p r d) = X (ix3 b (⟨512 + r.val, by omega⟩ : Fin 2048) d))
    (h3 : ∀ (r : Fin 512) (d : Fin 256), X3 (ix3 p r d) = X (ix3 b (⟨1024 + r.val, by omega⟩ : Fin 2048) d))
    (h4 : ∀ (r : Fin 512) (d : Fin 256), X4 (ix3 p r d) = X (ix3 b (⟨1536 + r.val, by omega⟩ : Fin 2048) d)) :
    histBlock Wb X1 X2 X3 X4 (ix2 p (⟨f.val * 32 + k.val, by omega⟩ : Fin 4096))
      = Ideal.div (hits X W b f k) (Ideal.ofBits .f32 0x45000000#32) := by
  rw [histBlock_apply, chunkHist_apply, chunkHist_apply, chunkHist_apply, chunkHist_apply,
    binCount_apply, binCount_apply, binCount_apply, binCount_apply]
  simp only [binIdx_apply, hW, h1, h2, h3, h4]
  unfold hits
  rw [sum_four_runs]
  rfl

end Cert.KernelIdeal.HistKer

end
-- ==== Proof.HistKerArray.lean ====
/-
  From blocks to the array: after the kernel's run the result array is the specification's histogram of the arguments.

  The grid has eight points; point `t` reads batches `8 t … 8 t + 7` of the examples whole (all 2048 examples, all 256
  coordinates), the whole weight matrix, and writes rows `8 t … 8 t + 7` of the result, all 4096 columns. The weights the
  region finds are the `[1, 128, 256]` argument re-laid as `[128, 256]` by the one host operation in front of it. So the
  four runs the body loads are examples `0 … 511`, …, `1536 … 2047` of batch `8 t + p` for row `p` of the block, and by
  the block's entry lemma what point `t` writes back is block `t` of the histogram. The eight blocks tile the result.
-/
import proofs.«168139_j24893630448192_1_alg».proof.Proof.Gen.KernelIdeal.Value
import proofs.«168139_j24893630448192_1_alg».proof.Proof.HistKerRead

set_option maxRecDepth 16384

noncomputable section

namespace Cert.KernelIdeal.HistKer

open Cert.KernelIdeal Cert.KernelIdeal.Gen Idealize.ShloMosaic Idealize.ShloMosaic.TcCoe Idealize.SL.Sem
open Idealize.ShloMosaic.Pipeline (Dat)
open Idealize.ShloMosaic.ValueIdx Cert.HistSpec

variable (m : (ℓ : Loc nD τ sig) → Buf (Elt Ideal) ℓ) (ρ : Dev nD → PrngReg)

/-- The printed index maps over the eight points: the examples' block moves with the result's along the batch axis and
    sits at zero on the others; the weights' block is the whole matrix; the result's block index is the point's batch
    octet, at column block zero. -/
theorem idx_facts : ∀ t : Fin cfg0.N,
    win0_0.index t (0 : Fin 3) = win0_2.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) ≤ 7 ∧ win0_2.index t (1 : Fin 2) = 0 :=
  (by decide +kernel : ∀ t : Fin grid0.N, _)

/-- Every batch octet is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- The weights as the region finds them: the argument re-laid from `[1, 128, 256]` to `[128, 256]`. -/
theorem weights_found (c : Dev nD) :
    (V m c main_v0 : S128x256.Idx → Elt Ideal .f32)
      = shapeCast S128x256 (m ((c : Thread nD τ).loc main_arg1)) shapeCasts_S1x128x256_S128x256 := by
  dsimp only [Gen.V, Gen.hostOps0]
  after_results
  rfl

theorem weights_found_apply (c : Dev nD) (f : Fin 128) (d : Fin 256) :
    (V m c main_v0 : S128x256.Idx → Elt Ideal .f32) (ix2 f d)
      = m ((c : Thread nD τ).loc main_arg1) (ix3 (0 : Fin 1) f d) := by
  rw [weights_found]
  refine shapeCast_apply _ _ (ix2 f d) (ix3 (0 : Fin 1) f d) ?_
  rw [Shape.rowMajor_val_three, Shape.rowMajor_val_two]
  show (0 * 128 + f.val) * 256 + d.val = f.val * 256 + d.val
  omega

/-- WHAT POINT `t` WRITES BACK is block `t` of the histogram of the argument arrays. -/
theorem flushed_eq (c : Dev nD) (t : Fin cfg0.N) :
    (dats m 0 c).flushed 2 t = ((cfg0.win 2).blk t).view.read (Elt Ideal)
      (hist (m ((c : Thread nD τ).loc main_arg0)) (m ((c : Thread nD τ).loc main_arg1))) := by
  rw [Value.flushed2]
  obtain ⟨e00, e01, e02, e10, e11, e2le, e21⟩ := idx_facts t
  funext j
  obtain ⟨p, q, rfl⟩ : ∃ (p : Fin 8) (q : Fin 4096), j = ix2 p q := ⟨j 0, j 1, eq_ix2 j⟩
  obtain ⟨f, k, rfl⟩ : ∃ (f : Fin 128) (k : Fin 32), q = (⟨f.val * 32 + k.val, by omega⟩ : Fin 4096) :=
    ⟨⟨q.val / 32, by omega⟩, ⟨q.val % 32, Nat.mod_lt _ (by norm_num)⟩,
      Fin.ext (by show q.val = q.val / 32 * 32 + q.val % 32; omega)⟩
  show out0_2 (iblk m c 0 t) (iblk m c 1 t) (ix2 p (⟨f.val * 32 + k.val, by omega⟩ : Fin 4096)) = _
  refine (congrFun (out_eq (iblk m c 0 t) (iblk m c 1 t)) _).trans ?_
  refine (histBlock_entry _ _ _ _ _ (m ((c : Thread nD τ).loc main_arg0)) (m ((c : Thread nD τ).loc main_arg1))
    (⟨win0_2.index t (0 : Fin 2) * 8 + p.val, by omega⟩ : Fin 64) p f k ?_ ?_ ?_ ?_ ?_).trans ?_
  · intro f' d
    show V m c main_v0 (((cfg0.win 1).blk t).view.emb (r0_0.idx (ix2 f' d))) = _
    rw [← weights_found_apply m c f' d]
    refine congrArg (V m c main_v0) (funext fun a => Fin.ext ?_)
    match a with
    | ⟨0, _⟩ => show win0_1.index t (0 : Fin 2) * 128 + 1 * (0 + 1 * f'.val) = f'.val; omega
    | ⟨1, _⟩ => show win0_1.index t (1 : Fin 2) * 256 + 1 * (0 + 1 * d.val) = d.val; omega
  · intro r d
    show V m c main_arg0 (((cfg0.win 0).blk t).view.emb (r0_1.idx (ix3 p r d))) = _
    rw [V_main_arg0]
    refine congrArg (m ((c : Thread nD τ).loc main_arg0)) (funext fun a => Fin.ext ?_)
    match a with
    | ⟨0, _⟩ => show win0_0.index t (0 : Fin 3) * 8 + 1 * (0 + 1 * p.val) = win0_2.index t (0 : Fin 2) * 8 + p.val; omega
    | ⟨1, _⟩ => show win0_0.index t (1 : Fin 3) * 2048 + 1 * (0 + 1 * r.val) = r.val; omega
    | ⟨2, _⟩ => show win0_0.index t (2 : Fin 3) * 256 + 1 * (0 + 1 * d.val) = d.val; omega
  · intro r d
    show V m c main_arg0 (((cfg0.win 0).blk t).view.emb (r0_2.idx (ix3 p r d))) = _
    rw [V_main_arg0]
    refine congrArg (m ((c : Thread nD τ).loc main_arg0)) (funext fun a => Fin.ext ?_)
    match a with
    | ⟨0, _⟩ => show win0_0.index t (0 : Fin 3) * 8 + 1 * (0 + 1 * p.val) = win0_2.index t (0 : Fin 2) * 8 + p.val; omega
    | ⟨1, _⟩ => show win0_0.index t (1 : Fin 3) * 2048 + 1 * (512 + 1 * r.val) = 512 + r.val; omega
    | ⟨2, _⟩ => show win0_0.index t (2 : Fin 3) * 256 + 1 * (0 + 1 * d.val) = d.val; omega
  · intro r d
    show V m c main_arg0 (((cfg0.win 0).blk t).view.emb (r0_3.idx (ix3 p r d))) = _
    rw [V_main_arg0]
    refine congrArg (m ((c : Thread nD τ).loc main_arg0)) (funext fun a => Fin.ext ?_)
    match a with
    | ⟨0, _⟩ => show win0_0.index t (0 : Fin 3) * 8 + 1 * (0 + 1 * p.val) = win0_2.index t (0 : Fin 2) * 8 + p.val; omega
    | ⟨1, _⟩ => show win0_0.index t (1 : Fin 3) * 2048 + 1 * (1024 + 1 * r.val) = 1024 + r.val; omega
    | ⟨2, _⟩ => show win0_0.index t (2 : Fin 3) * 256 + 1 * (0 + 1 * d.val) = d.val; omega
  · intro r d
    show V m c main_arg0 (((cfg0.win 0).blk t).view.emb (r0_4.idx (ix3 p r d))) = _
    rw [V_main_arg0]
    refine congrArg (m ((c : Thread nD τ).loc main_arg0)) (funext fun a => Fin.ext ?_)
    match a with
    | ⟨0, _⟩ => show win0_0.index t (0 : Fin 3) * 8 + 1 * (0 + 1 * p.val) = win0_2.index t (0 : Fin 2) * 8 + p.val; omega
    | ⟨1, _⟩ => show win0_0.index t (1 : Fin 3) * 2048 + 1 * (1536 + 1 * r.val) = 1536 + r.val; omega
    | ⟨2, _⟩ => show win0_0.index t (2 : Fin 3) * 256 + 1 * (0 + 1 * d.val) = d.val; omega
  · show _ = hist (m ((c : Thread nD τ).loc main_arg0)) (m ((c : Thread nD τ).loc main_arg1))
      (((cfg0.win 2).blk t).view.emb (ix2 p (⟨f.val * 32 + k.val, by omega⟩ : Fin 4096)))
    unfold hist
    have c0 : ((((cfg0.win 2).blk t).view.emb (ix2 p (⟨f.val * 32 + k.val, by omega⟩ : Fin 4096))) 0).val
        = win0_2.index t (0 : Fin 2) * 8 + p.val := by
      show win0_2.index t (0 : Fin 2) * 8 + 1 * p.val = _; omega
    have c1 : ((((cfg0.win 2).blk t).view.emb (ix2 p (⟨f.val * 32 + k.val, by omega⟩ : Fin 4096))) 1).val
        = f.val * 32 + k.val := by
      show win0_2.index t (1 : Fin 2) * 4096 + 1 * (f.val * 32 + k.val) = _; omega
    congr 2
    · exact Fin.ext c0.symm
    · exact Fin.ext (by show f.val = _ / 32; rw [c1]; omega)
    · exact Fin.ext (by show k.val = _ % 32; rw [c1]; omega)

/-- An index of the result is in point `t`'s block iff each coordinate is in the block's range on its axis. -/
theorem mem_blk (t : Fin cfg0.N) (i : S64x4096.Idx) :
    i ∈ ((cfg0.win 2).blk t).view.set ↔ ∀ a : Fin 2, win0_2.index t a * S8x4096.size a ≤ (i a).val
      ∧ (i a).val < win0_2.index t a * S8x4096.size a + S8x4096.size a := by
  show i ∈ ((View.whole main_v1).slice (win0_2.rect t)).set ↔ _
  rw [View.set_slice_whole, Rect.mem_set_unit]
  exact Iff.rfl

/-- The eight blocks tile the result: row `b` lies in the block of point `b / 8`. -/
theorem covered (i : S64x4096.Idx) :
    ∃ t : Fin cfg0.N, (cfg0.win 2).flush t = true ∧ i ∈ ((cfg0.win 2).blk t).view.set := by
  have hi0 : (i 0).val < 64 := (i 0).isLt
  have hi1 : (i 1).val < 4096 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 4096 ≤ (i 1).val ∧ (i 1).val < win0_2.index t (1 : Fin 2) * 4096 + 4096; omega

/-- THE RESULT ARRAY after the run is the histogram of the argument arrays. -/
theorem final (c : Dev nD) :
    (dats m 0 c).arrAt 2 cfg0.N
      = hist (m ((c : Thread nD τ).loc main_arg0)) (m ((c : Thread nD τ).loc main_arg1)) :=
  (dats m 0 c).arrAt_eq_of_cover 2 _ (fun t _ => flushed_eq m c t) covered

/-- The kernel's run, read: the result at the histogram of the arguments, the arguments unchanged. -/
theorem run : θ_run defs (onTc (τ := τ) (main (F := Ideal))) ⟨m, fun _ => 0, ρ⟩ fun r => ∀ c : Dev nD,
      r.2.mem ((c : Thread nD τ).loc main_v1)
        = hist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.HistKer

end
-- ==== Proof.LibScatterCount.lean ====
/-
  Counting by a scatter, free of any program.

  `zeros([A, C, K]).at[a, c, k].add(1)` over index triples laid along the last axis of an `[A, N, C, 3]` array prints
  as a scatter with no window axes, every operand axis inserted, and start component `t` naming operand axis `t`.
  Update `(a, n, c)` reads its three start words at `(a, n, c, 0 … 2)`; when they are the numbers `p, q, r` inside the
  operand, the update lands on `(p, q, r)`. When every update `(a, n, c)` lands on `(a, c, bin a n c)`, the operand is
  zero and every update is one, entry `(p, q, r)` of the result is the number of `n` with `bin p n q = r`.

  Also here: a sum over a rank-3 index set is the triple sum over its coordinates; a rank-2 index is the pair of its
  coordinates; and jnp's wrap of a negative index, `select (w < 0) (w + size) w`, leaves a non-negative word alone.
-/
import Idealize.ShloMosaic.PureOps.Ideal
import Idealize.ShloMosaic.Lib.ValueIdx
import Idealize.ShloMosaic.Lib.Affine

noncomputable section

namespace Cert.LibScatterCount

open Idealize.ShloMosaic Idealize.ShloMosaic.ValueIdx
open scoped BigOperators

/-! ## Rank-3 indices by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two rank-3 indices agree exactly when their coordinates do. -/
theorem ix3_inj {n0 n1 n2 : Nat} (a a' : Fin n0) (b b' : Fin n1) (c c' : Fin n2) :
    ix3 a b c = ix3 a' b' c' ↔ a = a' ∧ b = b' ∧ c = c' := by
  constructor
  · intro h
    have h' : (idxEquiv3 (n0 := n0) (n1 := n1) (n2 := n2)).symm (a, b, c) = idxEquiv3.symm (a', b', c') := h
    simpa using idxEquiv3.symm.injective h'
  · rintro ⟨rfl, rfl, rfl⟩; rfl

/-- Every rank-2 index is the pair of two coordinates of literal type. -/
theorem exists_ix2 {n0 n1 : Nat} (j : (⟨2, ![n0, n1]⟩ : Shape).Idx) : ∃ (a : Fin n0) (b : Fin n1), j = ix2 a b :=
  ⟨(idxEquiv2 j).1, (idxEquiv2 j).2, (idxEquiv2.left_inv j).symm⟩

/-! ## The wrap of a non-negative index -/

/-- `select (w < 0) y w` is `w` when `w` is not negative, whatever `y` is. -/
theorem select_wrap (w y : BitVec 32) (h : 0 ≤ w.toInt) :
    Scalar.select (IntOp.cmpi .slt w 0#32) y w = w := by
  have h0 : (0#32 : BitVec 32).toInt = 0 := by decide
  have hnot : ¬ IntOp.cmpi .slt w 0#32 = 1#1 := by
    rw [IntOp.cmpi_slt, h0]; omega
  rw [eq_zero_of_ne_one hnot, select_zero]

/-! ## The scatter's dimension numbers, and where an update lands -/

/-- Operand `[A, C, K]`, index triples `[A, N, C, 3]` along the last axis, updates `[A, N, C]`: no window axes, all
    three operand axes inserted, start component `t` for operand axis `t`. The conditions `wf` are decided on a
    program's literal shapes. -/
abbrev countDims (A N C K : Nat)
    (wf : ScatterDims.WF ⟨3, ![A, C, K]⟩ ⟨4, ![A, N, C, 3]⟩ ⟨3, ![A, N, C]⟩ [] [0, 1, 2] [0, 1, 2] 3) :
    ScatterDims ⟨3, ![A, C, K]⟩ ⟨4, ![A, N, C, 3]⟩ ⟨3, ![A, N, C]⟩ where
  updateWindowDims := []
  insertedWindowDims := [0, 1, 2]
  scatterDimsToOperandDims := [0, 1, 2]
  indexVectorDim := 3
  wf := wf

section Landing
variable {A N C K : Nat}
  (wf : ScatterDims.WF ⟨3, ![A, C, K]⟩ ⟨4, ![A, N, C, 3]⟩ ⟨3, ![A, N, C]⟩ [] [0, 1, 2] [0, 1, 2] 3)

/-- Update `(a, n, c)` reads component `t` of its start triple at `(a, n, c, t)`. -/
theorem countDims_siIdx (a : Fin A) (n : Fin N) (c : Fin C) (t : Fin 3) :
    (countDims A N C K wf).siIdx (ix3 a n c) t = ix4 a n c t := by
  funext b
  refine Fin.ext ?_
  match b with
  | ⟨0, _⟩ => rfl
  | ⟨1, _⟩ => rfl
  | ⟨2, _⟩ => rfl
  | ⟨3, _⟩ => rfl

/-- The start of update `(a, n, c)` on operand axis `t` is its start word `t`, read signed; it has no window. -/
theorem countDims_start_add_window (idx : IVec ⟨4, ![A, N, C, 3]⟩ 32) (a : Fin A) (n : Fin N) (c : Fin C) (t : Fin 3) :
    (countDims A N C K wf).start (ix3 a n c) idx t + ((countDims A N C K wf).window (ix3 a n c) t : Int)
      = (idx (ix4 a n c t)).toInt := by
  have hw : (countDims A N C K wf).window (ix3 a n c) t = 0 := by
    unfold ScatterDims.window
    exact dif_neg (by simp [ScatterDims.sKept, Shape.kept, List.mem_filter]; fin_cases t <;> simp)
  have hm : ∀ u : Fin 3, u ∈ (countDims A N C K wf).scatterDimsToOperandDims := fun u => by
    fin_cases u <;> simp
  have key : ∀ u : Fin 3,
      (idx ((countDims A N C K wf).siIdx (ix3 a n c)
        ⟨List.idxOf u (countDims A N C K wf).scatterDimsToOperandDims, List.idxOf_lt_length_iff.2 (hm u)⟩)).toInt
        = (idx (ix4 a n c u)).toInt := by
    intro u
    fin_cases u
    · exact congrArg (fun i => (idx i).toInt) (countDims_siIdx wf a n c ⟨0, by decide⟩)
    · exact congrArg (fun i => (idx i).toInt) (countDims_siIdx wf a n c ⟨1, by decide⟩)
    · exact congrArg (fun i => (idx i).toInt) (countDims_siIdx wf a n c ⟨2, by decide⟩)
  rw [hw]
  unfold ScatterDims.start
  rw [dif_pos (hm t), Nat.cast_zero, add_zero]
  exact key t

/-- **Where an update lands.** When the three start words of update `(a, n, c)` are the numbers `p`, `q`, `r`, each
    inside its operand axis, the update lands on `(p, q, r)`. -/
theorem countDims_resultIdx (idx : IVec ⟨4, ![A, N, C, 3]⟩ 32) (a : Fin A) (n : Fin N) (c : Fin C)
    (p : Fin A) (q : Fin C) (r : Fin K)
    (h0 : (idx (ix4 a n c (0 : Fin 3))).toInt = (p.val : Int))
    (h1 : (idx (ix4 a n c (1 : Fin 3))).toInt = (q.val : Int))
    (h2 : (idx (ix4 a n c (2 : Fin 3))).toInt = (r.val : Int)) :
    (countDims A N C K wf).resultIdx? (ix3 a n c) idx = some (ix3 p q r) := by
  have hs : ∀ t : Fin 3, (countDims A N C K wf).start (ix3 a n c) idx t
      + ((countDims A N C K wf).window (ix3 a n c) t : Int) = ((ix3 p q r t).val : Int) := fun t => by
    rw [countDims_start_add_window]
    match t with
    | ⟨0, _⟩ => exact h0
    | ⟨1, _⟩ => exact h1
    | ⟨2, _⟩ => exact h2
  unfold ScatterDims.resultIdx?
  rw [dif_pos (fun t => by
    rw [hs t]
    exact ⟨Int.natCast_nonneg _, by exact_mod_cast (ix3 p q r t).isLt⟩)]
  refine congrArg some (funext fun t => Fin.ext ?_)
  show ((countDims A N C K wf).start (ix3 a n c) idx t + ((countDims A N C K wf).window (ix3 a n c) t : Int)).toNat = _
  rw [hs t, Int.toNat_natCast]

end Landing

/-! ## A scatter of ones into zeros counts -/

/-- **The count.** If the operand is zero, every update is one, and update `(a, n, c)` lands on `(a, c, bin a n c)`,
    then entry `(p, q, r)` of the scatter's result is the number of `n` whose `bin p n q` is `r`. -/
theorem countDims_scatter_ones {A N C K : Nat}
    (wf : ScatterDims.WF ⟨3, ![A, C, K]⟩ ⟨4, ![A, N, C, 3]⟩ ⟨3, ![A, N, C]⟩ [] [0, 1, 2] [0, 1, 2] 3)
    (x : (⟨3, ![A, C, K]⟩ : Shape).Idx → EReal) (idx : IVec ⟨4, ![A, N, C, 3]⟩ 32)
    (upd : (⟨3, ![A, N, C]⟩ : Shape).Idx → EReal) (hx : ∀ i, x i = 0) (hu : ∀ j, upd j = 1)
    (bin : Fin A → Fin N → Fin C → Fin K)
    (hland : ∀ a n c, (countDims A N C K wf).resultIdx? (ix3 a n c) idx = some (ix3 a c (bin a n c)))
    (p : Fin A) (q : Fin C) (r : Fin K) :
    Ideal.hostScatterAdd (countDims A N C K wf) x idx upd (ix3 p q r)
      = ∑ n : Fin N, if bin p n q = r then (1 : EReal) else 0 := by
  show x (ix3 p q r) + ∑ j ∈ Finset.univ.filter
      (fun j => (countDims A N C K wf).resultIdx? j idx = some (ix3 p q r)), upd j = _
  rw [hx, zero_add, Finset.sum_filter, sum_idx3]
  simp only [hland, hu, Option.some.injEq, ix3_inj]
  rw [Finset.sum_eq_single p]
  · refine Finset.sum_congr rfl fun n _ => ?_
    rw [Finset.sum_eq_single q]
    · by_cases h : bin p n q = r
      · rw [if_pos ⟨rfl, rfl, h⟩, if_pos h]
      · rw [if_neg (fun hh => h hh.2.2), if_neg h]
    · intro c _ hc
      exact if_neg (fun hh => hc hh.2.1)
    · intro h; exact absurd (Finset.mem_univ _) h
  · intro a _ ha
    exact Finset.sum_eq_zero fun n _ => Finset.sum_eq_zero fun c _ => if_neg (fun hh => ha hh.1)
  · intro h; exact absurd (Finset.mem_univ _) h

end Cert.LibScatterCount

end
-- ==== Proof.RefHist.lean ====
/-
  The reference's result is the histogram of the specification.

  The reference multiplies every example by the weights, takes the logistic, scales by 32, cuts to an integer and clips to
  `0 … 31`; it then adds a one at position `(b, f, bin)` for every example `(b, n, f)` and divides by 2048. An update lands
  on `(b, f, k)` exactly when it comes from batch `b`, feature `f` and an example whose bin is `k`, so the entry is the number
  of such examples over 2048.

  The steps, in the program's order. The product `X · I[0]ᵀ` at `(b, n, f)` is the specification's score. The printed
  `1 / (1 + exp (−s))` is the logistic, so the clipped integer is the specification's bin word. The three index arrays
  the scatter reads are the batch number, the feature number and the bin, each after jnp's wrap of negative indices,
  which changes nothing since all three are non-negative; joined along a last axis of length 3 they give update
  `(b, n, f)` the start triple `(b, f, bin)`, inside the operand `[64, 128, 32]`. The operand is zero and every update is
  one, so the scatter counts; the division by 2048 and the reshape to `[64, 4096]` are the specification's.
-/
import proofs.«168139_j24893630448192_1_alg».proof.Proof.Gen.ReferenceIdeal.Read
import proofs.«168139_j24893630448192_1_alg».proof.Proof.HistSpec
import proofs.«168139_j24893630448192_1_alg».proof.Proof.LibScatterCount
import Idealize.ShloMosaic.Lib.IdealHost
import Idealize.ShloMosaic.Lib.WordArith

noncomputable section

namespace Cert.RefHist

open Cert.ReferenceIdeal Cert.ReferenceIdeal.Gen Cert.ReferenceIdeal.Read Idealize.ShloMosaic Idealize.ShloMosaic.TcCoe
open Idealize.ShloMosaic.ValueIdx Cert.HistSpec Cert.LibScatterCount

section Stages
variable (x0 : (⟨S64x2048x256, .f32⟩ : BufTy).Contents (Elt Ideal))
  (x1 : (⟨S1x128x256, .f32⟩ : BufTy).Contents (Elt Ideal))

/-! ## The score and the bin -/

/-- The product at `(b, n, f)` is the score of example `n` of batch `b` against feature `f`. -/
theorem v1_at (b : Fin 64) (n : Fin 2048) (f : Fin 128) :
    val_main_v1 (F := Ideal) x0 x1 (ix3 b n f) = score x0 x1 b n f := by
  rw [val_main_v1_apply]
  unfold score
  refine Finset.sum_congr rfl fun d _ => ?_
  rw [val_main_v0_apply]
  have el : lidx_main_v1 (ix3 b n f) d = ix3 b n d := by
    funext a; refine Fin.ext ?_
    match a with
    | ⟨0, _⟩ => rfl
    | ⟨1, _⟩ => rfl
    | ⟨2, _⟩ => rfl
  have er : idx_main_v0 (ridx_main_v1 (ix3 b n f) d) = ix3 (0 : Fin 1) f d := by
    funext a; refine Fin.ext ?_
    match a with
    | ⟨0, _⟩ => rfl
    | ⟨1, _⟩ => show (f.val * 256 + d.val) / 256 % 128 = f.val; omega
    | ⟨2, _⟩ => show (f.val * 256 + d.val) % 256 = d.val; omega
  rw [el, er]

/-- The clipped integer at `(b, n, f)` is the bin word of the score: the printed `1 / (1 + exp (−s))` is the logistic. -/
theorem v11_at (b : Fin 64) (n : Fin 2048) (f : Fin 128) :
    val_main_v11 (F := Ideal) x0 x1 (ix3 b n f) = binWord (score x0 x1 b n f) := by
  rw [val_main_v11_apply, val_main_call0_v4_apply, val_main_call0_v3_apply, val_main_c_2_apply,
    val_main_call0_v2_apply, val_main_call0_v1_apply, val_main_call0_v0_apply, val_main_c_apply,
    val_main_v10_apply, val_main_v9_apply, val_main_v8_apply, val_main_cst_1_apply, val_main_v7_apply,
    val_main_v6_apply, val_main_cst_0_apply, val_main_v5_apply, val_main_v4_apply, val_main_cst_apply,
    val_main_v3_apply, val_main_v2_apply, v1_at]
  show IntOp.minsi 31#32 (IntOp.maxsi 0#32 (Ideal.fptosi 32
      (Ideal.div (Ideal.ofBits .f32 0x3F800000#32)
          (Ideal.ofBits .f32 0x3F800000#32 + Ideal.exp (-(score x0 x1 b n f)))
        * Ideal.ofBits .f32 0x42000000#32))) = _
  rw [Ideal.ofBits_one_f32]
  rfl

/-- The bin after the wrap of negative indices: unchanged, the bin word is not negative. -/
theorem v31_at (b : Fin 64) (n : Fin 2048) (f : Fin 128) :
    val_main_v31 (F := Ideal) x0 x1 (ix3 b n f) = binWord (score x0 x1 b n f) := by
  rw [val_main_v31_apply, val_main_v28_apply, val_main_v27_apply, val_main_c_8_apply, v11_at]
  exact select_wrap _ _ (binWord_toInt _).1

end Stages

/-! ## The batch and feature numbers -/

/-- The batch array at `(b, n, f)` is the word of `b`: an iota, wrapped (unchanged) and broadcast. -/
theorem v32_at (b : Fin 64) (n : Fin 2048) (f : Fin 128) :
    val_main_v32 (F := Ideal) (ix3 b n f) = BitVec.ofNat 32 b.val := by
  rw [val_main_v32_apply, val_main_v21_apply, val_main_v18_apply, val_main_v17_apply, val_main_c_4_apply,
    val_main_v13_apply, val_main_v12_apply]
  show Scalar.select (IntOp.cmpi .slt (BitVec.ofNat 32 b.val) 0#32) _ (BitVec.ofNat 32 b.val) = BitVec.ofNat 32 b.val
  refine select_wrap _ _ ?_
  rw [WordArith.toInt_ofNat_small _ (by have := b.isLt; omega)]
  exact Int.natCast_nonneg _

/-- The feature array at `(b, n, f)` is the word of `f`. -/
theorem v33_at (b : Fin 64) (n : Fin 2048) (f : Fin 128) :
    val_main_v33 (F := Ideal) (ix3 b n f) = BitVec.ofNat 32 f.val := by
  rw [val_main_v33_apply, val_main_v26_apply, val_main_v23_apply, val_main_v22_apply, val_main_c_6_apply,
    val_main_v15_apply, val_main_v14_apply]
  show Scalar.select (IntOp.cmpi .slt (BitVec.ofNat 32 f.val) 0#32) _ (BitVec.ofNat 32 f.val) = BitVec.ofNat 32 f.val
  refine select_wrap _ _ ?_
  rw [WordArith.toInt_ofNat_small _ (by have := f.isLt; omega)]
  exact Int.natCast_nonneg _

section Scatter
variable (x0 : (⟨S64x2048x256, .f32⟩ : BufTy).Contents (Elt Ideal))
  (x1 : (⟨S1x128x256, .f32⟩ : BufTy).Contents (Elt Ideal))

/-! ## The start triples: the three arrays joined along a last axis -/

/-- Dropping the last (unit) coordinate of `(b, n, f, 0)`: the first piece's index map … -/
theorem drop_unit34 (b : Fin 64) (n : Fin 2048) (f : Fin 128) :
    idx_main_v34 (ix4 b n f (0 : Fin 1)) = ix3 b n f := by
  funext a; refine Fin.ext ?_
  match a with
  | ⟨0, _⟩ => rfl
  | ⟨1, _⟩ => rfl
  | ⟨2, _⟩ => rfl

/-- … the second's … -/
theorem drop_unit35 (b : Fin 64) (n : Fin 2048) (f : Fin 128) :
    idx_main_v35 (ix4 b n f (0 : Fin 1)) = ix3 b n f := by
  funext a; refine Fin.ext ?_
  match a with
  | ⟨0, _⟩ => rfl
  | ⟨1, _⟩ => rfl
  | ⟨2, _⟩ => rfl

/-- … and the third's. -/
theorem drop_unit36 (b : Fin 64) (n : Fin 2048) (f : Fin 128) :
    idx_main_v36 (ix4 b n f (0 : Fin 1)) = ix3 b n f := by
  funext a; refine Fin.ext ?_
  match a with
  | ⟨0, _⟩ => rfl
  | ⟨1, _⟩ => rfl
  | ⟨2, _⟩ => rfl

/-- Component 0 of the start triple of update `(b, n, f)` is the word of `b`. -/
theorem v37_at0 (b : Fin 64) (n : Fin 2048) (f : Fin 128) :
    val_main_v37 (F := Ideal) x0 x1 (ix4 b n f (0 : Fin 3)) = BitVec.ofNat 32 b.val := by
  have h : val_main_v37 (F := Ideal) x0 x1 (ix4 b n f (0 : Fin 3))
      = val_main_v34 (F := Ideal) (ix4 b n f (0 : Fin 1)) := by
    unfold val_main_v37
    exact concatenate_apply_piece _ _ _ (ix4 b n f (0 : Fin 3)) 0 (by simp) S64x2048x128x1 _ rfl rfl 0 rfl
      (ix4 b n f (0 : Fin 1)) (fun c hc => by
        match c with
        | ⟨0, _⟩ => rfl
        | ⟨1, _⟩ => rfl
        | ⟨2, _⟩ => rfl
        | ⟨3, _⟩ => exact absurd rfl hc) rfl
  rw [h, val_main_v34_apply, drop_unit34, v32_at]

/-- Component 1 is the word of `f`. -/
theorem v37_at1 (b : Fin 64) (n : Fin 2048) (f : Fin 128) :
    val_main_v37 (F := Ideal) x0 x1 (ix4 b n f (1 : Fin 3)) = BitVec.ofNat 32 f.val := by
  have h : val_main_v37 (F := Ideal) x0 x1 (ix4 b n f (1 : Fin 3))
      = val_main_v35 (F := Ideal) (ix4 b n f (0 : Fin 1)) := by
    unfold val_main_v37
    exact concatenate_apply_piece _ _ _ (ix4 b n f (1 : Fin 3)) 1 (by simp) S64x2048x128x1 _ rfl rfl 1 rfl
      (ix4 b n f (0 : Fin 1)) (fun c hc => by
        match c with
        | ⟨0, _⟩ => rfl
        | ⟨1, _⟩ => rfl
        | ⟨2, _⟩ => rfl
        | ⟨3, _⟩ => exact absurd rfl hc) rfl
  rw [h, val_main_v35_apply, drop_unit35, v33_at]

/-- Component 2 is the bin word of the score. -/
theorem v37_at2 (b : Fin 64) (n : Fin 2048) (f : Fin 128) :
    val_main_v37 (F := Ideal) x0 x1 (ix4 b n f (2 : Fin 3)) = binWord (score x0 x1 b n f) := by
  have h : val_main_v37 (F := Ideal) x0 x1 (ix4 b n f (2 : Fin 3))
      = val_main_v36 (F := Ideal) x0 x1 (ix4 b n f (0 : Fin 1)) := by
    unfold val_main_v37
    exact concatenate_apply_piece _ _ _ (ix4 b n f (2 : Fin 3)) 2 (by simp) S64x2048x128x1 _ rfl rfl 2 rfl
      (ix4 b n f (0 : Fin 1)) (fun c hc => by
        match c with
        | ⟨0, _⟩ => rfl
        | ⟨1, _⟩ => rfl
        | ⟨2, _⟩ => rfl
        | ⟨3, _⟩ => exact absurd rfl hc) rfl
  rw [h, val_main_v36_apply, drop_unit36, v31_at]

/-! ## The scatter counts -/

/-- The bin of example `(b, n, f)` as a number below 32. -/
def binOf (b : Fin 64) (n : Fin 2048) (f : Fin 128) : Fin 32 :=
  ⟨(binWord (score x0 x1 b n f)).toNat, binWord_toNat_lt _⟩

/-- Update `(b, n, f)` lands on `(b, f, bin)`: its start triple is inside the operand. -/
theorem lands (b : Fin 64) (n : Fin 2048) (f : Fin 128) :
    (countDims 64 2048 128 32 scatter_S64x128x32_S64x2048x128x3_S64x2048x128_n_012_012_3_wf).resultIdx? (ix3 b n f)
        (val_main_v37 (F := Ideal) x0 x1) = some (ix3 b f (binOf x0 x1 b n f)) := by
  refine countDims_resultIdx _ _ b n f b f (binOf x0 x1 b n f) ?_ ?_ ?_
  · rw [v37_at0]; exact WordArith.toInt_ofNat_small _ (by have := b.isLt; omega)
  · rw [v37_at1]; exact WordArith.toInt_ofNat_small _ (by have := f.isLt; omega)
  · rw [v37_at2]; exact binWord_toInt_eq_toNat _

/-- The operand of the scatter is zero … -/
theorem v16_at (i : S64x128x32.Idx) : val_main_v16 (F := Ideal) i = (0 : EReal) := by
  rw [val_main_v16_apply, val_main_cst_3_apply]
  exact Ideal.ofBits_zero_f32

/-- … and every update is one. -/
theorem v38_at (j : S64x2048x128.Idx) : val_main_v38 (F := Ideal) j = (1 : EReal) := by
  rw [val_main_v38_apply, val_main_cst_10_apply]
  exact Ideal.ofBits_one_f32

/-- Entry `(b, f, k)` of the scatter's result is the number of examples of batch `b` whose bin for feature `f` is `k`. -/
theorem v39_at (b : Fin 64) (f : Fin 128) (k : Fin 32) :
    val_main_v39 (F := Ideal) x0 x1 (ix3 b f k) = hits x0 x1 b f k := by
  have hd : val_main_v39 (F := Ideal) x0 x1
      = Ideal.hostScatterAdd (countDims 64 2048 128 32 scatter_S64x128x32_S64x2048x128x3_S64x2048x128_n_012_012_3_wf)
          (val_main_v16 (F := Ideal)) (val_main_v37 (F := Ideal) x0 x1) (val_main_v38 (F := Ideal)) := rfl
  rw [hd, countDims_scatter_ones _ _ _ _ v16_at v38_at (binOf x0 x1) (lands x0 x1)]
  unfold hits
  refine Finset.sum_congr rfl fun n _ => ?_
  by_cases h : binWord (score x0 x1 b n f) = BitVec.ofNat 32 k.val
  · rw [if_pos h, if_pos (Fin.ext ((binWord_eq_iff _ k).1 h))]
  · rw [if_neg h, if_neg (fun hh => h ((binWord_eq_iff _ k).2 (congrArg Fin.val hh)))]

end Scatter

/-! ## The result -/

/-- The reference's last stage, as a function of the two argument arrays, is the specification's histogram. -/
theorem reference_is_hist (x0 : (⟨S64x2048x256, .f32⟩ : BufTy).Contents (Elt Ideal))
    (x1 : (⟨S1x128x256, .f32⟩ : BufTy).Contents (Elt Ideal)) :
    val_main_v42 (F := Ideal) x0 x1 = hist x0 x1 := by
  funext j
  obtain ⟨b, m, rfl⟩ := exists_ix2 j
  have hm := m.isLt
  have e : idx_main_v42 (ix2 b m)
      = ix3 b (⟨m.val / 32, by omega⟩ : Fin 128) (⟨m.val % 32, Nat.mod_lt _ (by norm_num)⟩ : Fin 32) := by
    funext a; refine Fin.ext ?_
    have hb := b.isLt
    match a with
    | ⟨0, _⟩ => show (b.val * 4096 + m.val) / 4096 = b.val; omega
    | ⟨1, _⟩ => show (b.val * 4096 + m.val) / 32 % 128 = m.val / 32; omega
    | ⟨2, _⟩ => show (b.val * 4096 + m.val) % 32 = m.val % 32; omega
  rw [val_main_v42_apply, val_main_v41_apply, val_main_v40_apply, val_main_cst_11_apply, e, v39_at]
  rfl

end Cert.RefHist

end
-- ==== Proof.lean ====
/-
  A histogram of logistic scores, by the kernel and by the reference: the two idealized programs compute one function.

  Both programs take 64 batches of 2048 examples with 256 coordinates and a 128 × 256 weight matrix. For each example and
  each of the 128 features they take the inner product with the feature's weight row, apply the logistic, scale by 32, cut
  to an integer and clip to `0 … 31`: the example's bin for that feature. The result, 64 × (128 · 32), holds for each
  (batch, feature, bin) the number of the batch's examples in that bin, divided by 2048.

  The KERNEL runs over the batches in eight blocks of eight; in each it walks the 2048 examples in four runs of 512, and for
  each run and each of the 32 bins it sums, over the run's examples, the mark "this example's bin is this one". The
  REFERENCE builds, for every (batch, example, feature), the index triple (batch, feature, bin) and adds a one at that
  position of a zero array. On the extended reals a sum of marks over the examples is the same number whichever way it is
  grouped, so no finiteness of the inputs is used: both results are `Cert.HistSpec.hist` of the argument arrays
  (`Cert.KernelIdeal.HistKer.run` for the kernel, `Cert.RefHist.reference_is_hist` over the reference's run).
  The kernel's casts to bf16 are the identity on the extended reals, its matrix product into a zero accumulator is the plain
  sum, and its logistic is the reference's `1 / (1 + exp (−x))`.

  The three frames are the generated ones (the reference's is its generated run with the result dropped); the idealization
  rewrote nothing, so `preserves` is trivial.
-/
import proofs.«168139_j24893630448192_1_alg».proof.Defs
import proofs.«168139_j24893630448192_1_alg».proof.Proof.Gen.Kernel
import proofs.«168139_j24893630448192_1_alg».proof.Proof.Gen.Kernel.Skeleton
import proofs.«168139_j24893630448192_1_alg».proof.Proof.Gen.Kernel.Launch
import proofs.«168139_j24893630448192_1_alg».proof.Proof.Gen.Kernel.Points
import proofs.«168139_j24893630448192_1_alg».proof.Proof.Gen.Kernel.Frame
import proofs.«168139_j24893630448192_1_alg».proof.Proof.Gen.KernelIdeal
import proofs.«168139_j24893630448192_1_alg».proof.Proof.Gen.KernelIdeal.Skeleton
import proofs.«168139_j24893630448192_1_alg».proof.Proof.Gen.KernelIdeal.Launch
import proofs.«168139_j24893630448192_1_alg».proof.Proof.Gen.KernelIdeal.Points
import proofs.«168139_j24893630448192_1_alg».proof.Proof.Gen.KernelIdeal.Frame
import proofs.«168139_j24893630448192_1_alg».proof.Proof.Gen.ReferenceIdeal
import proofs.«168139_j24893630448192_1_alg».proof.Proof.Gen.Pre_finite_inputs
import proofs.«168139_j24893630448192_1_alg».proof.Proof.Gen.KernelIdeal.Value
import proofs.«168139_j24893630448192_1_alg».proof.Proof.Gen.ReferenceIdeal.Run
import proofs.«168139_j24893630448192_1_alg».proof.Proof.Gen.ReferenceIdeal.Read
import proofs.«168139_j24893630448192_1_alg».proof.Proof.HistKerArray
import proofs.«168139_j24893630448192_1_alg».proof.Proof.RefHist
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result at the histogram of those arguments. -/
theorem algebraic : Cert.algebraic_KernelIdeal_ReferenceIdeal := by
  intro m ρ m' ρ' _ hagree
  refine ⟨_, Cert.KernelIdeal.HistKer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.RefHist.reference_is_hist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
